-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1 : Shape := ⟨1, ![1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1 : S_.BroadcastsInDim S1 (![] : Fin 0 → Fin S1.rank)
  reducesTo_S1_S_d0 : S1.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1 .f32) (main_arg2 : FVec F S64x256 .f32) (main_arg3 : FVec F S256 .f32) (main_arg4 : FVec F S256x64 .f32) (main_arg5 : FVec F S64 .f32) (main_arg6 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x64 : Shape := ⟨2, ![100000, 64]⟩
abbrev S1 : Shape := ⟨1, ![1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x1 : Shape := ⟨2, ![1, 1]⟩
abbrev S5000x64 : Shape := ⟨2, ![5000, 64]⟩
abbrev S5000x256 : Shape := ⟨2, ![5000, 256]⟩
abbrev S1x256 : Shape := ⟨2, ![1, 256]⟩
abbrev S1x64 : Shape := ⟨2, ![1, 64]⟩

abbrev nBuf : Space → Nat
  | .hbm => 26
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1, .f32⟩
  | .hbm, ⟨2, _⟩ => ⟨S64x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x1, .f32⟩
  | .hbm, ⟨25, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S1x1, .f32⟩
  | .local _ .vmem, ⟨5, _⟩ => ⟨S64x256, .f32⟩
  | .local _ .vmem, ⟨6, _⟩ => ⟨S256, .f32⟩
  | .local _ .vmem, ⟨7, _⟩ => ⟨S256x64, .f32⟩
  | .local _ .vmem, ⟨8, _⟩ => ⟨S64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x64_S5000x64_0_0 : ∀ a, (![0, 0] : Fin 2 → Nat) a + S5000x64.size a ≤ S5000x64.size a
  h_S5000x64 : 0 < S5000x64.numel
  broadcasts_S1x1_S5000x64 : S1x1.Broadcasts S5000x64
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1 : Shape := ⟨1, ![1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x256 : Shape := ⟨2, ![100000, 256]⟩
abbrev S1x256 : Shape := ⟨2, ![1, 256]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1, .f32⟩
  | .hbm, ⟨2, _⟩ => ⟨S64x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S100000x256, .f32⟩
  | .hbm, ⟨29, _⟩ => ⟨S1x256, .f32⟩
  | .hbm, ⟨30, _⟩ => ⟨S100000x256, .f32⟩
  | .hbm, ⟨31, _⟩ => ⟨S100000x256, .f32⟩
  | .hbm, ⟨32, _⟩ => ⟨S_, .f32⟩
  | .hbm, ⟨33, _⟩ => ⟨S100000x256, .f32⟩
  | .hbm, ⟨34, _⟩ => ⟨S100000x256, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S1_S_ : S1.ShapeCasts S_
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x256_S100000x256_1_0_0_1_n_n_wf : DotDims.WF S100000x64 S64x256 S100000x256 [1] [0] [0] [1] [] []
  dot_S100000x256_S256x64_S100000x64_1_0_0_1_n_n_wf : DotDims.WF S100000x256 S256x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.NodeMap.lean ====
/-
  The map one graph node goes through after aggregation, on the extended reals.

  A node has 64 input features `xr` and the sum `ar` of its in-neighbours' features. With the self-weight `e` the
  combined features are `h k = e * xr k + ar k`. The first linear layer sends them to 256 hidden features
  `∑ k1, h k1 * w1 (k1, k2) + b1 k2`, the rectifier replaces each by its maximum with zero, and the second linear
  layer returns 64 features `∑ k2, hidden k2 * w2 (k2, q) + b2 q`.

  The map of one node does not depend on how many nodes there are: both programs apply it to every row of the node
  array, the kernel block of rows by block of rows and the reference to all rows at once.
-/
import Idealize.ShloMosaic.PureOps.Ideal
import Idealize.ShloMosaic.Lib.ValueIdx

noncomputable section

namespace Cert.NodeMap

open Idealize.ShloMosaic Idealize.ShloMosaic.ValueIdx

/-- The hidden feature `k2` of a node before the rectifier: the first layer's weighted sum of the combined
    features, plus its bias. -/
def preAct (e : EReal) (xr ar : Fin 64 → EReal) (w1 : (⟨2, ![64, 256]⟩ : Shape).Idx → EReal)
    (b1 : (⟨1, ![256]⟩ : Shape).Idx → EReal) (k2 : Fin 256) : EReal :=
  (∑ k1 : Fin 64, (e * xr k1 + ar k1) * w1 (ix2 k1 k2)) + b1 (ix1 k2)

/-- The output feature `q` of a node: the second layer's weighted sum of the rectified hidden features, plus its
    bias. -/
def nodeOut (e : EReal) (xr ar : Fin 64 → EReal) (w1 : (⟨2, ![64, 256]⟩ : Shape).Idx → EReal)
    (b1 : (⟨1, ![256]⟩ : Shape).Idx → EReal) (w2 : (⟨2, ![256, 64]⟩ : Shape).Idx → EReal)
    (b2 : (⟨1, ![64]⟩ : Shape).Idx → EReal) (q : Fin 64) : EReal :=
  (∑ k2 : Fin 256, max (preAct e xr ar w1 b1 k2) 0 * w2 (ix2 k2 q)) + b2 (ix1 q)

/-- The whole layer on the 100000 nodes: row `r` of the result is `nodeOut` of row `r` of the features and of the
    aggregated features. -/
def layer (e : EReal) (x agg : (⟨2, ![100000, 64]⟩ : Shape).Idx → EReal)
    (w1 : (⟨2, ![64, 256]⟩ : Shape).Idx → EReal) (b1 : (⟨1, ![256]⟩ : Shape).Idx → EReal)
    (w2 : (⟨2, ![256, 64]⟩ : Shape).Idx → EReal) (b2 : (⟨1, ![64]⟩ : Shape).Idx → EReal) :
    (⟨2, ![100000, 64]⟩ : Shape).Idx → EReal :=
  fun i => nodeOut e (fun k => x (ix2 (i 0) k)) (fun k => agg (ix2 (i 0) k)) w1 b1 w2 b2 (i 1)

end Cert.NodeMap

end
-- ==== Proof.BlockProducts.lean ====
/-
  The two matrix products of the kernel body, read at an entry.

  On the extended reals a matrix product into a zero accumulator is the plain sum over the contracted axis: entry
  (p, c) of `l · r` is `∑ k, l (p, k) * r (k, c)`. The first product takes a block of 5000 rows of 64 features
  through the 64 × 256 weights, the second takes the 5000 × 256 hidden block through the 256 × 64 weights.
-/
import proofs.«111155_j35399120453944_1_alg».proof.Proof.Gen.KernelIdeal
import Idealize.ShloMosaic.Lib.ValueIdx
import Idealize.ShloMosaic.PureOps.Ideal.Laws

noncomputable section

namespace Cert.KernelIdeal.BlockProducts

open Cert.KernelIdeal Cert.KernelIdeal.Gen Idealize.ShloMosaic Idealize.ShloMosaic.ValueIdx

/-! ## Which operand entries an output entry and a contraction index pick -/

theorem lhs_first_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem lhs_first_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q
theorem rhs_first_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q
theorem rhs_first_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

theorem lhs_second_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_second_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_second_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_second_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-! ## The products as sums -/

/-- Entry (p, c) of the first product: the sum over the 64 input features. -/
theorem first_apply (l : FVec Ideal S5000x64 .bf16) (r : FVec Ideal S64x256 .bf16) (p : Fin 5000) (c : Fin 256) :
    matmul dot_S5000x64_S64x256_S5000x256_1_0_0_1_n_n none l r (constant S5000x256 .f32 0x00000000#32) (ix2 p c) = ∑ k : Fin 64, l (ix2 p k) * r (ix2 k c) := by
  simp only [matmul]
  rw [Ideal.matmul_constant_zero_apply, ← Equiv.sum_comp (ValueIdx.contrEquiv1 dot_S5000x64_S64x256_S5000x256_1_0_0_1_n_n 64 rfl rfl).symm]
  refine Finset.sum_congr rfl fun k _ => ?_
  have hk := ValueIdx.contrEquiv1_symm_val dot_S5000x64_S64x256_S5000x256_1_0_0_1_n_n 64 rfl rfl k
  have el : dot_S5000x64_S64x256_S5000x256_1_0_0_1_n_n.lhsIdx (ix2 p c) ((ValueIdx.contrEquiv1 dot_S5000x64_S64x256_S5000x256_1_0_0_1_n_n 64 rfl rfl).symm k) = ix2 p k := funext fun a => Fin.ext (by
    match a with
    | ⟨0, _⟩ => exact lhs_first_0 _ _
    | ⟨1, _⟩ => exact (lhs_first_1 _ _).trans hk)
  have er : dot_S5000x64_S64x256_S5000x256_1_0_0_1_n_n.rhsIdx (ix2 p c) ((ValueIdx.contrEquiv1 dot_S5000x64_S64x256_S5000x256_1_0_0_1_n_n 64 rfl rfl).symm k) = ix2 k c := funext fun a => Fin.ext (by
    match a with
    | ⟨0, _⟩ => exact (rhs_first_0 _ _).trans hk
    | ⟨1, _⟩ => exact rhs_first_1 _ _)
  rw [el, er]

/-- Entry (p, c) of the second product: the sum over the 256 hidden features. -/
theorem second_apply (l : FVec Ideal S5000x256 .bf16) (r : FVec Ideal S256x64 .bf16) (p : Fin 5000) (c : Fin 64) :
    matmul dot_S5000x256_S256x64_S5000x64_1_0_0_1_n_n none l r (constant S5000x64 .f32 0x00000000#32) (ix2 p c) = ∑ k : Fin 256, l (ix2 p k) * r (ix2 k c) := by
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p c) ((ValueIdx.contrEquiv1 dot_S5000x256_S256x64_S5000x64_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S5000x256_S256x64_S5000x64_1_0_0_1_n_n.rhsIdx (ix2 p c) ((ValueIdx.contrEquiv1 dot_S5000x256_S256x64_S5000x64_1_0_0_1_n_n 256 rfl rfl).symm k) = ix2 k c := funext fun a => Fin.ext (by
    match a with
    | ⟨0, _⟩ => exact (rhs_second_0 _ _).trans hk
    | ⟨1, _⟩ => exact rhs_second_1 _ _)
  rw [el, er]

end Cert.KernelIdeal.BlockProducts

end
-- ==== Proof.BlockValue.lean ====
/-
  What the kernel body computes for one block of 5000 nodes, read at an entry.

  The body multiplies the block of features by the self-weight, adds the block of aggregated features, and takes the
  result through the two linear layers with the rectifier between them. Changes of float format are the identity
  on the extended reals, the self-weight block and the two bias rows are spread over the block's rows, and each
  matrix product is a sum over its contracted axis. So entry (p, q) of the body's result is the node map
  `NodeMap.nodeOut` of row p of the two input blocks.
-/
import proofs.«111155_j35399120453944_1_alg».proof.Proof.Gen.KernelIdeal.Skeleton
import proofs.«111155_j35399120453944_1_alg».proof.Proof.NodeMap
import proofs.«111155_j35399120453944_1_alg».proof.Proof.BlockProducts
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx
open Cert.NodeMap Cert.KernelIdeal.BlockProducts

variable (v0 : Vec Ideal S1x1 .f32) (v2 v5 : Vec Ideal S5000x64 .f32) (v9 : Vec Ideal S64x256 .f32)
  (v12 : Vec Ideal S256 .f32) (v19 : Vec Ideal S256x64 .f32) (v22 : Vec Ideal S64 .f32)

/-- The self-weight, a 1 × 1 block, spread over the 5000 × 64 block: every entry is the one weight. -/
theorem weight_apply (w : FVec Ideal S1x1 .f32) (p : Fin 5000) (k : Fin 64) :
    broadcastTo S5000x64 w broadcasts_S1x1_S5000x64 (ix2 p k) = w (ix2 0 0) :=
  broadcastTo_apply w broadcasts_S1x1_S5000x64 (ix2 p k) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- One row of 256 entries spread over the 5000 rows: entry (p, k) is the row's entry k. -/
theorem spread256_apply (w : FVec Ideal S1x256 .f32) (p : Fin 5000) (k : Fin 256) :
    broadcastTo S5000x256 w broadcasts_S1x256_S5000x256 (ix2 p k) = w (ix2 0 k) :=
  broadcastTo_apply w broadcasts_S1x256_S5000x256 (ix2 p k) (ix2 0 k) (fun a => match a with
    | ⟨0, _⟩ => by show 0 = if (1 : Nat) = 1 then 0 else _; rw [if_pos rfl]
    | ⟨1, _⟩ => by show k.val = if (256 : Nat) = 1 then 0 else k.val; rw [if_neg (by decide)])

/-- One row of 64 entries spread over the 5000 rows: entry (p, q) is the row's entry q. -/
theorem spread64_apply (w : FVec Ideal S1x64 .f32) (p : Fin 5000) (q : Fin 64) :
    broadcastTo S5000x64 w broadcasts_S1x64_S5000x64 (ix2 p q) = w (ix2 0 q) :=
  broadcastTo_apply w broadcasts_S1x64_S5000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- 256 entries laid out as one row: entry (0, k) of the row is entry k. -/
theorem row256_apply (w : FVec Ideal S256 .f32) (k : Fin 256) :
    shapeCast S1x256 w shapeCasts_S256_S1x256 (ix2 0 k) = w (ix1 k) :=
  shapeCast_apply w shapeCasts_S256_S1x256 (ix2 0 k) (ix1 k) (by
    rewrite [Shape.rowMajor_val_two, Shape.rowMajor_val_one]; show k.val = 0 * 256 + k.val; omega)

/-- 64 entries laid out as one row: entry (0, q) of the row is entry q. -/
theorem row64_apply (w : FVec Ideal S64 .f32) (q : Fin 64) :
    shapeCast S1x64 w shapeCasts_S64_S1x64 (ix2 0 q) = w (ix1 q) :=
  shapeCast_apply w shapeCasts_S64_S1x64 (ix2 0 q) (ix1 q) (by
    rewrite [Shape.rowMajor_val_two, Shape.rowMajor_val_one]; show q.val = 0 * 64 + q.val; omega)

/-- Entry (p, q) of the body's result is the node map of row p of the feature block and of the aggregated block,
    with the self-weight the 1 × 1 block's entry and the layers' weights and biases the loaded ones. -/
theorem pay_apply (p : Fin 5000) (q : Fin 64) :
    k0_pay1 (F := Ideal) v0 v2 v5 v9 v12 v19 v22 (ix2 p q)
      = nodeOut (v0 (ix2 0 0)) (fun k => v2 (ix2 p k)) (fun k => v5 (ix2 p k)) v9 v12 v19 v22 q := by
  unfold k0_pay1 nodeOut preAct
  simp only [addf_apply, mulf_apply, maximumf_apply, truncf_apply, broadcast_apply, first_apply, second_apply,
    shapeCast_self, weight_apply, spread256_apply, spread64_apply, row256_apply, row64_apply,
    Ideal.ofBits_def, Ideal.ofBits_zero_f32]

end Cert.KernelIdeal.BlockValue

end
-- ==== Proof.ArrayValue.lean ====
/-
  The kernel's result array as one function of the arrays the region finds.

  The grid has 20 points. At point t the feature window and the aggregated-feature window hold rows
  5000 t … 5000 t + 4999 of their arrays, the self-weight, the two weight matrices and the two biases are whole at
  every point, and the output window's block is rows 5000 t … 5000 t + 4999 of the result. The body's result at
  entry (p, q) of the block is the node map of row p of the two input blocks, that is of row 5000 t + p of the two
  arrays: so point t writes back block t of the layer applied to the whole arrays. Row r lies in the block of point
  r / 5000, so the 20 blocks cover the result array, which therefore ends holding the layer of the arrays.
-/
import proofs.«111155_j35399120453944_1_alg».proof.Proof.Gen.KernelIdeal.Value
import proofs.«111155_j35399120453944_1_alg».proof.Proof.NodeMap
import proofs.«111155_j35399120453944_1_alg».proof.Proof.BlockValue
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.NodeMap

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The windows' block indices over the 20 points: the three row-tiled windows are at block row t, column 0; the
    five whole-array windows stay at the origin. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## A window's block at a point, read off any array of the window's shape -/

/-- Row p of the feature window's block at point t is row 5000 t + p of the array it reads. -/
theorem features_rows (A : Vec Ideal S100000x64 .f32) (t : Fin cfg0.N) (p : Fin 5000) (k : Fin 64) (r : Fin 100000)
    (hr : r.val = 5000 * t.val + p.val) :
    (((cfg0.win 0).blk t).view.read (Elt Ideal) A : Vec Ideal S5000x64 .f32) (ix2 p k) = A (ix2 r k) := by
  obtain ⟨e0, e1, -⟩ := block_index t
  show A (((cfg0.win 0).blk t).view.emb (ix2 p k)) = A (ix2 r k)
  refine congrArg A ?_
  funext a
  apply Fin.ext
  match a with
  | ⟨0, _⟩ => show win0_0.index t 0 * 5000 + 1 * p.val = r.val; rw [e0, hr]; omega
  | ⟨1, _⟩ => show win0_0.index t 1 * 64 + 1 * k.val = k.val; rw [e1]; omega

/-- Row p of the aggregated-feature window's block at point t is row 5000 t + p of the array it reads. -/
theorem aggregated_rows (A : Vec Ideal S100000x64 .f32) (t : Fin cfg0.N) (p : Fin 5000) (k : Fin 64) (r : Fin 100000)
    (hr : r.val = 5000 * t.val + p.val) :
    (((cfg0.win 1).blk t).view.read (Elt Ideal) A : Vec Ideal S5000x64 .f32) (ix2 p k) = A (ix2 r k) := by
  obtain ⟨-, -, e0, e1, -⟩ := block_index t
  show A (((cfg0.win 1).blk t).view.emb (ix2 p k)) = A (ix2 r k)
  refine congrArg A ?_
  funext a
  apply Fin.ext
  match a with
  | ⟨0, _⟩ => show win0_1.index t 0 * 5000 + 1 * p.val = r.val; rw [e0, hr]; omega
  | ⟨1, _⟩ => show win0_1.index t 1 * 64 + 1 * k.val = k.val; rw [e1]; omega

/-- The self-weight window's block is its whole 1 × 1 array at every point. -/
theorem weight_whole (A : Vec Ideal S1x1 .f32) (t : Fin cfg0.N) :
    (((cfg0.win 2).blk t).view.read (Elt Ideal) A : Vec Ideal S1x1 .f32) = A := by
  obtain ⟨-, -, -, -, e0, e1, -⟩ := block_index t
  funext y
  show A (((cfg0.win 2).blk t).view.emb y) = A y
  refine congrArg A ?_
  funext a
  apply Fin.ext
  match a with
  | ⟨0, _⟩ => show win0_2.index t 0 * 1 + 1 * (y 0).val = (y 0).val; rw [e0]; omega
  | ⟨1, _⟩ => show win0_2.index t 1 * 1 + 1 * (y 1).val = (y 1).val; rw [e1]; omega

/-- The first weight matrix's window holds the whole matrix at every point. -/
theorem weights1_whole (A : Vec Ideal S64x256 .f32) (t : Fin cfg0.N) :
    (((cfg0.win 3).blk t).view.read (Elt Ideal) A : Vec Ideal S64x256 .f32) = A := by
  obtain ⟨-, -, -, -, -, -, e0, e1, -⟩ := block_index t
  funext y
  show A (((cfg0.win 3).blk t).view.emb y) = A y
  refine congrArg A ?_
  funext a
  apply Fin.ext
  match a with
  | ⟨0, _⟩ => show win0_3.index t 0 * 64 + 1 * (y 0).val = (y 0).val; rw [e0]; omega
  | ⟨1, _⟩ => show win0_3.index t 1 * 256 + 1 * (y 1).val = (y 1).val; rw [e1]; omega

/-- The first bias's window holds the whole bias at every point. -/
theorem bias1_whole (A : Vec Ideal S256 .f32) (t : Fin cfg0.N) :
    (((cfg0.win 4).blk t).view.read (Elt Ideal) A : Vec Ideal S256 .f32) = A := by
  obtain ⟨-, -, -, -, -, -, -, -, e0, -⟩ := block_index t
  funext y
  show A (((cfg0.win 4).blk t).view.emb y) = A y
  refine congrArg A ?_
  funext a
  apply Fin.ext
  match a with
  | ⟨0, _⟩ => show win0_4.index t 0 * 256 + 1 * (y 0).val = (y 0).val; rw [e0]; omega

/-- The second weight matrix's window holds the whole matrix at every point. -/
theorem weights2_whole (A : Vec Ideal S256x64 .f32) (t : Fin cfg0.N) :
    (((cfg0.win 5).blk t).view.read (Elt Ideal) A : Vec Ideal S256x64 .f32) = A := by
  obtain ⟨-, -, -, -, -, -, -, -, -, e0, e1, -⟩ := block_index t
  funext y
  show A (((cfg0.win 5).blk t).view.emb y) = A y
  refine congrArg A ?_
  funext a
  apply Fin.ext
  match a with
  | ⟨0, _⟩ => show win0_5.index t 0 * 256 + 1 * (y 0).val = (y 0).val; rw [e0]; omega
  | ⟨1, _⟩ => show win0_5.index t 1 * 64 + 1 * (y 1).val = (y 1).val; rw [e1]; omega

/-- The second bias's window holds the whole bias at every point. -/
theorem bias2_whole (A : Vec Ideal S64 .f32) (t : Fin cfg0.N) :
    (((cfg0.win 6).blk t).view.read (Elt Ideal) A : Vec Ideal S64 .f32) = A := by
  obtain ⟨-, -, -, -, -, -, -, -, -, -, -, e0, -⟩ := block_index t
  funext y
  show A (((cfg0.win 6).blk t).view.emb y) = A y
  refine congrArg A ?_
  funext a
  apply Fin.ext
  match a with
  | ⟨0, _⟩ => show win0_6.index t 0 * 64 + 1 * (y 0).val = (y 0).val; rw [e0]; omega

/-! ## What one point writes -/

/-- The body's result over any input blocks, read at entry (p, q): the one store's payload, which is the node map of
    row p of the first two blocks. -/
theorem body_result (x0 x1 : Vec Ideal S5000x64 .f32) (x2 : Vec Ideal S1x1 .f32) (x3 : Vec Ideal S64x256 .f32)
    (x4 : Vec Ideal S256 .f32) (x5 : Vec Ideal S256x64 .f32) (x6 : Vec Ideal S64 .f32) (p : Fin 5000) (q : Fin 64) :
    out0_7 (F := Ideal) x0 x1 x2 x3 x4 x5 x6 (ix2 p q)
      = nodeOut (x2 (ix2 0 0)) (fun k => x0 (ix2 p k)) (fun k => x1 (ix2 p k)) x3 x4 x5 x6 q := by
  unfold out0_7
  rw [View.canon_unit_zero zero2]
  simp only [View.ld_unit_zero (S := S5000x64) zero2, View.ld_unit_zero (S := S1x1) zero2,
    View.ld_unit_zero (S := S64x256) zero2, View.ld_unit_zero (S := S256) zero1,
    View.ld_unit_zero (S := S256x64) zero2, View.ld_unit_zero (S := S64) zero1]
  exact BlockValue.pay_apply x2 x0 x1 x3 x4 x5 x6 p q

/-- For any seven arrays of the windows' shapes: the body's result on the windows' blocks at point t, at entry
    (p, q), is the layer of the arrays at the entry of the result array that the output block's (p, q) is, namely
    (5000 t + p, q). -/
theorem block_of_layer (X A : Vec Ideal S100000x64 .f32) (E : Vec Ideal S1x1 .f32) (W1 : Vec Ideal S64x256 .f32)
    (B1 : Vec Ideal S256 .f32) (W2 : Vec Ideal S256x64 .f32) (B2 : Vec Ideal S64 .f32) (t : Fin cfg0.N)
    (p : Fin 5000) (q : Fin 64) :
    out0_7 (F := Ideal) (((cfg0.win 0).blk t).view.read (Elt Ideal) X) (((cfg0.win 1).blk t).view.read (Elt Ideal) A) (((cfg0.win 2).blk t).view.read (Elt Ideal) E) (((cfg0.win 3).blk t).view.read (Elt Ideal) W1) (((cfg0.win 4).blk t).view.read (Elt Ideal) B1) (((cfg0.win 5).blk t).view.read (Elt Ideal) W2) (((cfg0.win 6).blk t).view.read (Elt Ideal) B2) (ix2 p q)
      = layer (E (ix2 0 0)) X A W1 B1 W2 B2 (((cfg0.win 7).blk t).view.emb (ix2 p q)) := by
  obtain ⟨-, -, -, -, -, -, -, -, -, -, -, -, e0, e1⟩ := block_index t
  have hi1 : (((cfg0.win 7).blk t).view.emb (ix2 p q) : S100000x64.Idx) 1 = q :=
    Fin.ext (by show win0_7.index t 1 * 64 + 1 * q.val = q.val; rw [e1]; omega)
  have hi0 : ((((cfg0.win 7).blk t).view.emb (ix2 p q) : S100000x64.Idx) 0).val = 5000 * t.val + p.val := by
    show win0_7.index t 0 * 5000 + 1 * p.val = _; rw [e0]; omega
  have hx : (fun k : Fin 64 => (((cfg0.win 0).blk t).view.read (Elt Ideal) X : Vec Ideal S5000x64 .f32) (ix2 p k))
      = fun k => X (ix2 ((((cfg0.win 7).blk t).view.emb (ix2 p q) : S100000x64.Idx) 0) k) :=
    funext fun k => features_rows X t p k _ hi0
  have ha : (fun k : Fin 64 => (((cfg0.win 1).blk t).view.read (Elt Ideal) A : Vec Ideal S5000x64 .f32) (ix2 p k))
      = fun k => A (ix2 ((((cfg0.win 7).blk t).view.emb (ix2 p q) : S100000x64.Idx) 0) k) :=
    funext fun k => aggregated_rows A t p k _ hi0
  rw [body_result, hx, ha, weight_whole, weights1_whole, bias1_whole, weights2_whole, bias2_whole]
  unfold layer
  rw [hi1]

/-! ## The result array -/

/-- The layer applied to the arrays as the region finds them: the self-weight the entry of the 1 × 1 array. -/
def regionResult (c : Dev nD) : Vec Ideal S100000x64 .f32 :=
  layer ((V m c main_v14 : Vec Ideal S1x1 .f32) (ix2 0 0)) (V m c main_arg0) (V m c main_v13) (V m c main_arg2)
    (V m c main_arg3) (V m c main_arg4) (V m c main_arg5)

/-- Point t writes back block t of `regionResult`. -/
theorem flushed_eq (c : Dev nD) (t : Fin cfg0.N) :
    (dats m 0 c).flushed 7 t = ((cfg0.win 7).blk t).view.read (Elt Ideal) (regionResult m c) := by
  rw [Value.flushed7]
  unfold regionResult
  refine funext fun (j : S5000x64.Idx) => ?_
  obtain ⟨p, q, rfl⟩ : ∃ (p : Fin 5000) (q : Fin 64), j = ix2 p q := ⟨j 0, j 1, eq_ix2 j⟩
  exact block_of_layer (V m c main_arg0) (V m c main_v13) (V m c main_v14) (V m c main_arg2) (V m c main_arg3)
    (V m c main_arg4) (V m c main_arg5) t p q

/-- An entry of the result array is in point t's block iff its row is one of rows 5000 t … 5000 t + 4999 (and its
    column one of the 64). -/
theorem mem_block (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v15).slice (win0_7.rect t)).set ↔ _
  rw [View.set_slice_whole, Rect.mem_set_unit]
  exact Iff.rfl

/-- Every entry of the result array is in the block of the point its row divided by 5000 names. -/
theorem covered (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, -, -, -, -, -, -, e0, e1⟩ := block_index ⟨(i 0).val / 5000, ht⟩
  refine ⟨⟨(i 0).val / 5000, ht⟩, flush0_7 _, ?_⟩
  rw [mem_block]
  intro a
  match a with
  | ⟨0, _⟩ =>
    show win0_7.index ⟨(i 0).val / 5000, ht⟩ 0 * 5000 ≤ (i 0).val
      ∧ (i 0).val < win0_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ 1 * 64 ≤ (i 1).val
      ∧ (i 1).val < win0_7.index ⟨(i 0).val / 5000, ht⟩ 1 * 64 + 64
    rw [e1]; omega

/-- The result array after the run is `regionResult`. -/
theorem final (c : Dev nD) : (dats m 0 c).arrAt 7 cfg0.N = regionResult m c :=
  (dats m 0 c).arrAt_eq_of_cover 7 (regionResult m c) (fun t _ => flushed_eq m c t) covered

/-- The kernel program's run: the result array ends at `regionResult`, the arguments unchanged. -/
theorem run : θ_run defs (onTc (τ := τ) (main (F := Ideal))) ⟨m, fun _ => 0, ρ⟩ fun r => ∀ c : Dev nD,
      r.2.mem ((c : Thread nD τ).loc main_v15) = regionResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.ArrayValue

end
-- ==== Proof.HostSide.lean ====
/-
  The two arrays the host operations of the kernel's program prepare for the region.

  The aggregated array: the edge list's first row holds each edge's source node and its second row the target; a
  negative source index is counted from the end; every edge's source row of the feature array is gathered, and the
  gathered rows are added into an all-zero array at their targets' rows. The self-weight: the one-element array
  reshaped to 1 × 1. No host operation writes an argument, so the region finds the arguments as launched.
-/
import proofs.«111155_j35399120453944_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The edges' source nodes: the first row of the edge list as a vector, a negative index counted from the end. -/
def sources (ei : (⟨S2x1600000, .i32⟩ : BufTy).Contents (Elt F)) : (⟨S1600000, .i32⟩ : BufTy).Contents (Elt F) :=
  select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
    (addi (shapeCast _ (extractStridedSlice S1x1600000 ![0, 0] ei slices_S2x1600000_S1x1600000_0_0) shapeCasts_S1x1600000_S1600000) (broadcastInDim S1600000 ![] bcast_S_S1600000 (constantI S_ 32 100000#32)))
    (shapeCast _ (extractStridedSlice S1x1600000 ![0, 0] ei slices_S2x1600000_S1x1600000_0_0) shapeCasts_S1x1600000_S1600000)

/-- The aggregated features: every edge's source row gathered, the gathered rows added up at the edges' targets
    (the second row of the edge list) into an all-zero array. -/
def aggregated (x : (⟨S100000x64, .f32⟩ : BufTy).Contents (Elt F)) (ei : (⟨S2x1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (shapeCast _ (extractStridedSlice S1x1600000 ![1, 0] ei slices_S2x1600000_S1x1600000_1_0) shapeCasts_S1x1600000_S1600000))
    (Host.gather gather_S100000x64_S1600000x1_S1600000x64_1_0_n_n_0_1_164 x
      (broadcastInDim S1600000x1 ![0] bcast_S1600000_S1600000x1_0 (sources ei)))

variable (m : (ℓ : Loc nD τ sig) → Buf (Elt F) ℓ)

/-- The region finds the aggregated array of the launched features and edge list. -/
theorem found_aggregated (c : Dev nD) :
    (V m c main_v13 : (⟨S100000x64, .f32⟩ : BufTy).Contents (Elt F))
      = aggregated (m ((c : Thread nD τ).loc main_arg0)) (m ((c : Thread nD τ).loc main_arg6)) := by
  dsimp only [Gen.V, Gen.hostOps0]
  after_results
  rfl

/-- The region finds the self-weight array reshaped to 1 × 1. -/
theorem found_weight (c : Dev nD) :
    (V m c main_v14 : (⟨S1x1, .f32⟩ : BufTy).Contents (Elt F))
      = shapeCast S1x1 (m ((c : Thread nD τ).loc main_arg1)) shapeCasts_S1_S1x1 := by
  dsimp only [Gen.V, Gen.hostOps0]
  after_results
  rfl

/-- The 1 × 1 array's entry is the one-element array's entry. -/
theorem weight_entry (x1 : (⟨S1, .f32⟩ : BufTy).Contents (Elt F)) :
    shapeCast S1x1 x1 shapeCasts_S1_S1x1 (ix2 0 0) = x1 (ix1 0) :=
  shapeCast_apply x1 shapeCasts_S1_S1x1 (ix2 0 0) (ix1 0) (by
    rewrite [Shape.rowMajor_val_two, Shape.rowMajor_val_one]; show (0 : Nat) = 0 * 1 + 0; omega)

end Cert.KernelIdeal.HostSide

end
-- ==== Proof.KernelResult.lean ====
/-
  The kernel program's result as the layer of the launched arguments.

  The region finds the feature array, the two weight matrices and the two biases as launched, the self-weight as the
  one-element array reshaped to 1 × 1, and the aggregated array the host operations computed from the features and
  the edge list. So the result array is the layer of the launched arrays, with the aggregated array that function
  of the features and the edge list.
-/
import proofs.«111155_j35399120453944_1_alg».proof.Proof.ArrayValue
import proofs.«111155_j35399120453944_1_alg».proof.Proof.HostSide

noncomputable section

namespace Cert.KernelIdeal.KernelResult

open Cert.KernelIdeal Cert.KernelIdeal.Gen Idealize.ShloMosaic Idealize.ShloMosaic.TcCoe Idealize.SL.Sem
open Idealize.ShloMosaic.ValueIdx
open Cert.NodeMap Cert.KernelIdeal.ArrayValue Cert.KernelIdeal.HostSide

variable (m : (ℓ : Loc nD τ sig) → Buf (Elt Ideal) ℓ) (ρ : Dev nD → PrngReg)

/-- The layer of the launched arrays on core c. -/
def result (c : Dev nD) : Vec Ideal S100000x64 .f32 :=
  layer ((m ((c : Thread nD τ).loc main_arg1) : Vec Ideal S1 .f32) (ix1 0))
    (m ((c : Thread nD τ).loc main_arg0))
    (aggregated (F := Ideal) (m ((c : Thread nD τ).loc main_arg0)) (m ((c : Thread nD τ).loc main_arg6)))
    (m ((c : Thread nD τ).loc main_arg2)) (m ((c : Thread nD τ).loc main_arg3))
    (m ((c : Thread nD τ).loc main_arg4)) (m ((c : Thread nD τ).loc main_arg5))

/-- What the region writes is the layer of the launched arrays. -/
theorem regionResult_eq (c : Dev nD) : regionResult m c = result m c := by
  unfold regionResult result
  rw [found_weight, weight_entry, found_aggregated, V_main_arg0, V_main_arg2, V_main_arg3, V_main_arg4, V_main_arg5]

/-- The kernel program's run with the result array named by the launched arguments. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (regionResult_eq m c), (h c).2⟩) (ArrayValue.run m ρ)

end Cert.KernelIdeal.KernelResult

end
-- ==== Proof.RefValue.lean ====
/-
  The reference's result as the layer of its arguments.

  The reference multiplies the whole feature array by the self-weight (the one entry of a one-element array, spread
  over the array), adds the aggregated array, and takes the result through the two linear layers with the rectifier
  between them, each bias spread over the rows and each matrix product a sum over its contracted axis. Entry (r, q)
  of its result is therefore the node map of row r of the feature array and of the aggregated array. The aggregated
  array itself (neighbour features gathered along the edges and added up per target node) is kept as one term: the
  kernel's program computes it with the same operations.
-/
import proofs.«111155_j35399120453944_1_alg».proof.Proof.Gen.ReferenceIdeal.Read
import proofs.«111155_j35399120453944_1_alg».proof.Proof.NodeMap
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.NodeMap

variable (x0 : (⟨S100000x64, .f32⟩ : BufTy).Contents (Elt Ideal)) (x1 : (⟨S1, .f32⟩ : BufTy).Contents (Elt Ideal))
  (x2 : (⟨S64x256, .f32⟩ : BufTy).Contents (Elt Ideal)) (x3 : (⟨S256, .f32⟩ : BufTy).Contents (Elt Ideal))
  (x4 : (⟨S256x64, .f32⟩ : BufTy).Contents (Elt Ideal)) (x5 : (⟨S64, .f32⟩ : BufTy).Contents (Elt Ideal))
  (x6 : (⟨S2x1600000, .i32⟩ : BufTy).Contents (Elt Ideal))

/-- The one-element array reshaped to a scalar holds the array's one entry. -/
theorem selfWeight_apply (i : S_.Idx) : val_main_v14 (F := Ideal) x1 i = x1 (ix1 0) := by
  unfold val_main_v14
  refine shapeCast_apply x1 shapeCasts_S1_S_ i (ix1 0) ?_
  have h : (S_.rowMajor i).val < 1 := (S_.rowMajor i).isLt
  rewrite [Shape.rowMajor_val_one]
  show (0 : Nat) = _
  omega

/-- Entry (r, q) of the reference's result is the node map of row r of the feature array and of the aggregated
    array. -/
theorem result_eq :
    val_main_v26 (F := Ideal) x0 x1 x2 x3 x4 x5 x6
      = layer (x1 (ix1 0)) x0 (val_main_v13 (F := Ideal) x0 x6) x2 x3 x4 x5 := by
  funext i
  obtain ⟨r, q, rfl⟩ : ∃ (r : Fin 100000) (q : Fin 64), i = ix2 r q := ⟨i 0, i 1, eq_ix2 i⟩
  have l23 : ∀ k : Fin 256, lidx_main_v23 (ix2 r q) k = ix2 r k := fun k =>
    funext fun a => Fin.ext (by match a with | ⟨0, _⟩ => rfl | ⟨1, _⟩ => rfl)
  have r23 : ∀ k : Fin 256, ridx_main_v23 (ix2 r q) k = ix2 k q := fun k =>
    funext fun a => Fin.ext (by match a with | ⟨0, _⟩ => rfl | ⟨1, _⟩ => rfl)
  have l18 : ∀ (k2 : Fin 256) (k1 : Fin 64), lidx_main_v18 (ix2 r k2) k1 = ix2 r k1 := fun k2 k1 =>
    funext fun a => Fin.ext (by match a with | ⟨0, _⟩ => rfl | ⟨1, _⟩ => rfl)
  have r18 : ∀ (k2 : Fin 256) (k1 : Fin 64), ridx_main_v18 (ix2 r k2) k1 = ix2 k1 k2 := fun k2 k1 =>
    funext fun a => Fin.ext (by match a with | ⟨0, _⟩ => rfl | ⟨1, _⟩ => rfl)
  have i25 : idx_main_v24 (idx_main_v25 (ix2 r q)) = ix1 q :=
    funext fun a => Fin.ext (by match a with | ⟨0, _⟩ => rfl)
  have i20 : ∀ k2 : Fin 256, idx_main_v19 (idx_main_v20 (ix2 r k2)) = ix1 k2 := fun k2 =>
    funext fun a => Fin.ext (by match a with | ⟨0, _⟩ => rfl)
  show _ = nodeOut (x1 (ix1 0)) (fun k => x0 (ix2 r k)) (fun k => val_main_v13 (F := Ideal) x0 x6 (ix2 r k)) x2 x3 x4 x5 q
  unfold nodeOut preAct
  rw [val_main_v26_apply, val_main_v23_apply, val_main_v25_apply, val_main_v24_apply]
  simp only [l23, r23, val_main_v22_apply, val_main_v21_apply, val_main_v18_apply, l18, r18, val_main_v20_apply,
    val_main_v19_apply, i20, i25, val_main_v17_apply, val_main_v16_apply, val_main_v15_apply, selfWeight_apply,
    val_main_call0_v0_apply, val_main_call0_cst_apply, Ideal.addf_def, Ideal.mulf_def, Ideal.maximumf_def,
    Ideal.ofBits_def, Ideal.ofBits_zero_f32]

end Cert.ReferenceIdeal.RefValue

end
-- ==== Proof.lean ====
/-
  A graph-isomorphism-network layer on 100000 nodes with 64 features and 1600000 edges: every node's features times
  a self-weight, plus the sum of its in-neighbours' features, taken through two linear layers (64 → 256 → 64) with
  a rectifier between them.

  Both programs compute the neighbour sums with the same host operations (gather along the edges' sources, add up
  at the edges' targets). The kernel then walks the nodes in 20 blocks of 5000 rows and applies the node map to
  each block with two matrix products into zero accumulators; the reference applies it to all rows at once with two
  whole-array products. On the extended reals a change of float format is the identity and either kind of matrix
  product is the sum over the contracted axis, so both results are, entry by entry, the same node map of the same
  rows: no algebraic law beyond that reading is needed, and the finiteness of the inputs is not used.

  The three frames are the generated ones (the reference's is its generated run with the result dropped); the kernel
  and its idealization differ in no operation.
-/
import proofs.«111155_j35399120453944_1_alg».proof.Defs
import proofs.«111155_j35399120453944_1_alg».proof.Proof.Gen.Kernel
import proofs.«111155_j35399120453944_1_alg».proof.Proof.Gen.Kernel.Frame
import proofs.«111155_j35399120453944_1_alg».proof.Proof.Gen.KernelIdeal
import proofs.«111155_j35399120453944_1_alg».proof.Proof.Gen.KernelIdeal.Frame
import proofs.«111155_j35399120453944_1_alg».proof.Proof.Gen.KernelIdeal.Value
import proofs.«111155_j35399120453944_1_alg».proof.Proof.Gen.ReferenceIdeal
import proofs.«111155_j35399120453944_1_alg».proof.Proof.Gen.ReferenceIdeal.Run
import proofs.«111155_j35399120453944_1_alg».proof.Proof.Gen.ReferenceIdeal.Read
import proofs.«111155_j35399120453944_1_alg».proof.Proof.Gen.Pre_finite_inputs
import proofs.«111155_j35399120453944_1_alg».proof.Proof.KernelResult
import proofs.«111155_j35399120453944_1_alg».proof.Proof.RefValue
import Idealize.ShloMosaic.Adequacy
import Idealize.ShloMosaic.Init

noncomputable section

namespace Cert.Proof

open Idealize.ShloMosaic Idealize.ShloMosaic.TcCoe Idealize.SL.Sem

/-- The neighbour sums of the kernel's program and of the reference are one function of the features and the edge
    list: the same host operations in the same order. -/
theorem aggregated_eq (x : (⟨Cert.KernelIdeal.S100000x64, .f32⟩ : BufTy).Contents (Elt Ideal))
    (ei : (⟨Cert.KernelIdeal.S2x1600000, .i32⟩ : BufTy).Contents (Elt Ideal)) :
    Cert.KernelIdeal.HostSide.aggregated (F := Ideal) x ei = Cert.ReferenceIdeal.Read.val_main_v13 (F := Ideal) x ei := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the arguments in their result arrays. -/
theorem algebraic : Cert.algebraic_KernelIdeal_ReferenceIdeal := by
  intro m ρ m' ρ' _ hagree
  refine ⟨fun c => Cert.KernelIdeal.KernelResult.result m c, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v26_eq, Cert.ReferenceIdeal.RefValue.result_eq, h0, h1, h2, h3, h4, h5, h6,
    ← aggregated_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
